-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S8192x256 : Shape := ⟨2, ![8192, 256]⟩
abbrev S8192 : Shape := ⟨1, ![8192]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32768x256 .f32) (main_arg1 : FVec F S8192x256 .f32) (main_arg2 : FVec F S8192 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32768x256 : Shape := ⟨2, ![32768, 256]⟩
abbrev S8192x256 : Shape := ⟨2, ![8192, 256]⟩
abbrev S8192 : Shape := ⟨1, ![8192]⟩
abbrev S1x8192 : Shape := ⟨2, ![1, 8192]⟩
abbrev S32768x1 : Shape := ⟨2, ![32768, 1]⟩
abbrev S2048x256 : Shape := ⟨2, ![2048, 256]⟩
abbrev S1x2048 : Shape := ⟨2, ![1, 2048]⟩
abbrev S2048x1 : Shape := ⟨2, ![2048, 1]⟩
abbrev S2048 : Shape := ⟨1, ![2048]⟩
abbrev S256x2048 : Shape := ⟨2, ![256, 2048]⟩
abbrev S2048x2048 : Shape := ⟨2, ![2048, 2048]⟩
abbrev S32768 : Shape := ⟨1, ![32768]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S32768x256, .f32⟩
  | .hbm, ⟨1, _⟩ => ⟨S8192x256, .f32⟩
  | .hbm, ⟨2, _⟩ => ⟨S8192, .f32⟩
  | .hbm, ⟨3, _⟩ => ⟨S1x8192, .f32⟩
  | .hbm, ⟨4, _⟩ => ⟨S32768x1, .f32⟩
  | .hbm, ⟨5, _⟩ => ⟨S32768, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S2048x256_S2048 : S2048x256.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  transposes_S2048x256_p1_0_S256x2048 : S2048x256.Transposes [1, 0] S256x2048
  broadcasts_S2048x1_S2048x2048 : S2048x1.Broadcasts S2048x2048
  broadcasts_S1x2048_S2048x2048 : S1x2048.Broadcasts S2048x2048
  reduces_S2048x2048_S2048 : S2048x2048.Reduces [1] S2048
  shapeCasts_S32768x1_S32768 : S32768x1.ShapeCasts S32768
  reducesTo_S32768_S_d0 : S32768.ReducesTo [0] S_
  h_S_ : 0 < S_.numel
  reducesTo_S8192_S_d0 : S8192.ReducesTo [0] S_
  dot_S2048x256_S256x2048_S2048x2048_1_0_0_1_n_n_wf : DotDims.WF S2048x256 S256x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S32768x1.size a
  hwx0_3 : ∀ i : grid0.Coords, EltTy.bits .f32 = 32 ∨ (Rect.block (s := S32768x1) S2048x1.size (cc0_transform_3 i) (hinb0_3 i)).WholeWords (EltTy.packing .f32)

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x256 : Shape := ⟨2, ![32768, 256]⟩
abbrev S8192x256 : Shape := ⟨2, ![8192, 256]⟩
abbrev S8192 : Shape := ⟨1, ![8192]⟩
abbrev S_ : Shape := ⟨0, ![]⟩
abbrev S32768 : Shape := ⟨1, ![32768]⟩
abbrev S32768x1 : Shape := ⟨2, ![32768, 1]⟩
abbrev S1x8192 : Shape := ⟨2, ![1, 8192]⟩
abbrev S256x8192 : Shape := ⟨2, ![256, 8192]⟩
abbrev S32768x8192 : Shape := ⟨2, ![32768, 8192]⟩

abbrev nBuf : Space → Nat
  | .hbm => 37
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S8192x256, .f32⟩
  | .hbm, ⟨2, _⟩ => ⟨S8192, .f32⟩
  | .hbm, ⟨3, _⟩ => ⟨S32768x256, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S256x8192, .f32⟩
  | .hbm, ⟨12, _⟩ => ⟨S32768x8192, .f32⟩
  | .hbm, ⟨13, _⟩ => ⟨S32768x8192, .f32⟩
  | .hbm, ⟨14, _⟩ => ⟨S32768x8192, .f32⟩
  | .hbm, ⟨15, _⟩ => ⟨S32768x8192, .f32⟩
  | .hbm, ⟨16, _⟩ => ⟨S_, .f32⟩
  | .hbm, ⟨17, _⟩ => ⟨S32768x8192, .f32⟩
  | .hbm, ⟨18, _⟩ => ⟨S32768x8192, .f32⟩
  | .hbm, ⟨19, _⟩ => ⟨S32768x8192, .f32⟩
  | .hbm, ⟨20, _⟩ => ⟨S_, .f32⟩
  | .hbm, ⟨21, _⟩ => ⟨S32768x8192, .f32⟩
  | .hbm, ⟨22, _⟩ => ⟨S32768x8192, .f32⟩
  | .hbm, ⟨23, _⟩ => ⟨S1x8192, .f32⟩
  | .hbm, ⟨24, _⟩ => ⟨S32768x8192, .f32⟩
  | .hbm, ⟨25, _⟩ => ⟨S32768x8192, .f32⟩
  | .hbm, ⟨26, _⟩ => ⟨S_, .f32⟩
  | .hbm, ⟨27, _⟩ => ⟨S32768, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S8192x256_S8192_d1 : S8192x256.ReducesTo [1] S8192
  bcast_S8192_S1x8192_1 : S8192.BroadcastsInDim S1x8192 (![1] : Fin 1 → Fin S1x8192.rank)
  transposes_S8192x256_S256x8192_1_0 : S8192x256.Transposes [1, 0] S256x8192
  bcast_S32768x1_S32768x8192_0_1 : S32768x1.BroadcastsInDim S32768x8192 (![0, 1] : Fin 2 → Fin S32768x8192.rank)
  bcast_S1x8192_S32768x8192_0_1 : S1x8192.BroadcastsInDim S32768x8192 (![0, 1] : Fin 2 → Fin S32768x8192.rank)
  bcast_S_S32768x8192 : S_.BroadcastsInDim S32768x8192 (![] : Fin 0 → Fin S32768x8192.rank)
  reducesTo_S32768x8192_S32768_d1 : S32768x8192.ReducesTo [1] S32768
  reducesTo_S32768_S_d0 : S32768.ReducesTo [0] S_
  reducesTo_S8192_S_d0 : S8192.ReducesTo [0] S_
  dot_S32768x256_S256x8192_S32768x8192_1_0_0_1_n_n_wf : DotDims.WF S32768x256 S256x8192 S32768x8192 [1] [0] [0] [1] [] []

variable [Facts₀]

def dot_S32768x256_S256x8192_S32768x8192_1_0_0_1_n_n : DotDims S32768x256 S256x8192 S32768x8192 where
  lhsContracting := [1]
  rhsContracting := [0]
  lhsNonContracting := [0]
  rhsNonContracting := [1]
  lhsBatch := []
  rhsBatch := []
  wf := dot_S32768x256_S256x8192_S32768x8192_1_0_0_1_n_n_wf

class Facts : Prop extends Facts₀ where

variable [Facts]
-- ==== Proof.SemiDualCost.lean ====
/-
  The mathematics of the semi-dual optimal-transport objective, free of any program.

  For source rows x_r, target rows y_c (both in 256 coordinates) and a dual potential ψ_c, the reduced cost is
      cost r c = (‖x_r‖² + ‖y_c‖² − 2·⟨x_r, y_c⟩) · ½ − ψ_c ,
  half the squared distance less the potential, and each source row keeps the least reduced cost over all targets.
  One side takes that minimum over all 8192 targets at once; the other walks the targets in four tiles of 2048,
  folding each tile's minimum into a running minimum that starts at the fold's initial value. On the extended reals
  min is associative, commutative and idempotent, so the two agree whatever the entries (infinite ones included):
  that is the one law this file proves, by the universal property of a minimum (z ≤ min ↔ z ≤ every entry).
-/
import Idealize.ShloMosaic.Lib.ValueIdx
import Idealize.ShloMosaic.PureOps.Ideal.Laws

noncomputable section

namespace Cert.SemiDual

open Idealize.ShloMosaic Idealize.ShloMosaic.ValueIdx

/-- The reduced cost of row r against column c, over any row and column index types: the rows of x and y are given as
    functions of the 256 coordinates, two and half are the values of the two scale constants. -/
def cost {R C : Type} (two half : EReal) (xr : R → Fin 256 → EReal) (yc : C → Fin 256 → EReal) (ψ : C → EReal)
    (r : R) (c : C) : EReal :=
  ((∑ d : Fin 256, xr r d * xr r d) + (∑ d : Fin 256, yc c d * yc c d) - two * ∑ d : Fin 256, xr r d * yc c d) * half - ψ c

/-- Column q of tile j among the 8192 columns. -/
def tileCol (j : Fin 4) (q : Fin 2048) : Fin 8192 := ⟨2048 * j.val + q.val, by have := j.isLt; have := q.isLt; omega⟩

theorem tileCol_val (j : Fin 4) (q : Fin 2048) : (tileCol j q).val = 2048 * j.val + q.val := rfl

/-- Row p of row block i among the 32768 rows. -/
def blockRow (i : Fin 16) (p : Fin 2048) : Fin 32768 := ⟨2048 * i.val + p.val, by have := i.isLt; have := p.isLt; omega⟩

theorem blockRow_val (i : Fin 16) (p : Fin 2048) : (blockRow i p).val = 2048 * i.val + p.val := rfl

/-- The columns of tiles 0 … j. -/
def upTo (j : Fin 4) : Finset (Fin 8192) := Finset.univ.filter fun c => c.val < 2048 * (j.val + 1)

theorem mem_upTo (j : Fin 4) (c : Fin 8192) : c ∈ upTo j ↔ c.val < 2048 * (j.val + 1) := by
  simp only [upTo, Finset.mem_filter, Finset.mem_univ, true_and]

/-- The least of f over the columns of tiles 0 … j, from the initial value b. -/
def leastUpTo (b : EReal) (f : Fin 8192 → EReal) (j : Fin 4) : EReal := (upTo j).fold min b f

/-- The least of f over the columns of tile j alone, from b. -/
def leastInTile (b : EReal) (f : Fin 8192 → EReal) (j : Fin 4) : EReal :=
  (Finset.univ : Finset (Fin 2048)).fold min b fun q => f (tileCol j q)

/-- A minimum over a set that is another set together with one tile is the smaller of the two minima. -/
theorem fold_min_with_tile (b : EReal) (f : Fin 8192 → EReal) (s s' : Finset (Fin 8192)) (j : Fin 4)
    (hs : ∀ c, c ∈ s' ↔ c ∈ s ∨ ∃ q, c = tileCol j q) :
    s'.fold min b f = min (s.fold min b f) (leastInTile b f j) := by
  refine eq_of_forall_le_iff fun z => ?_
  unfold leastInTile
  rw [le_min_iff, Finset.le_fold_min, Finset.le_fold_min, Finset.le_fold_min]
  constructor
  · rintro ⟨hb, h⟩
    exact ⟨⟨hb, fun c hc => h c ((hs c).mpr (Or.inl hc))⟩, hb, fun q _ => h _ ((hs _).mpr (Or.inr ⟨q, rfl⟩))⟩
  · rintro ⟨⟨hb, h1⟩, -, h2⟩
    refine ⟨hb, fun c hc => ?_⟩
    rcases (hs c).mp hc with h | ⟨q, rfl⟩
    · exact h1 c h
    · exact h2 q (Finset.mem_univ q)

/-- After the first tile the running minimum is the initial value against that tile's minimum. -/
theorem leastUpTo_first (b : EReal) (f : Fin 8192 → EReal) : leastUpTo b f 0 = min b (leastInTile b f 0) := by
  unfold leastUpTo
  rw [fold_min_with_tile b f ∅ (upTo 0) 0 fun c => ?_, Finset.fold_empty]
  rw [mem_upTo]
  constructor
  · intro h
    exact Or.inr ⟨⟨c.val, by simpa using h⟩, Fin.ext (by simp [tileCol])⟩
  · rintro (h | ⟨q, rfl⟩)
    · exact absurd h (Finset.notMem_empty c)
    · have := q.isLt; rw [tileCol_val]; show 2048 * (0 : Fin 4).val + q.val < 2048 * ((0 : Fin 4).val + 1); simp only [Fin.val_zero]; omega

/-- Each later tile folds its own minimum into the running one. -/
theorem leastUpTo_next (b : EReal) (f : Fin 8192 → EReal) (j j' : Fin 4) (h : j'.val = j.val + 1) :
    leastUpTo b f j' = min (leastUpTo b f j) (leastInTile b f j') := by
  unfold leastUpTo
  refine fold_min_with_tile b f (upTo j) (upTo j') j' fun c => ?_
  rw [mem_upTo, mem_upTo]
  constructor
  · intro hc
    by_cases hlt : c.val < 2048 * (j.val + 1)
    · exact Or.inl hlt
    · exact Or.inr ⟨⟨c.val - 2048 * (j.val + 1), by omega⟩, Fin.ext (by rw [tileCol_val]; show c.val = 2048 * j'.val + (c.val - 2048 * (j.val + 1)); omega)⟩
  · rintro (hc | ⟨q, rfl⟩)
    · omega
    · have := q.isLt; rw [tileCol_val]; omega

/-- After the last tile the running minimum is the minimum over every column. -/
theorem leastUpTo_last (b : EReal) (f : Fin 8192 → EReal) :
    leastUpTo b f 3 = (Finset.univ : Finset (Fin 8192)).fold min b f := by
  unfold leastUpTo upTo
  rw [Finset.filter_true_of_mem fun c _ => by have := c.isLt; show c.val < 2048 * ((3 : Fin 4).val + 1); have h3 : (3 : Fin 4).val = 3 := rfl; omega]

end Cert.SemiDual

end
-- ==== Proof.SemiDualArrays.lean ====
/-
  The two programs' results as functions of the three argument arrays, at the extended reals.

  x is [32768, 256], y is [8192, 256], ψ is [8192]. Row r keeps  least r = min over c of cost r c  (from +∞), and the
  objective is  (0 + ∑ r, least r) / 32768 + (0 + ∑ c, ψ c) / 8192.  One side reads x and y through row blocks of 2048
  and ψ through a [1, 2048] block: a block's entries are the arrays' entries at shifted rows, so a tile's costs are the
  whole arrays' costs at the shifted row and column, and a tile's minimum is the minimum over that tile's columns.
-/
import proofs.«104257_j43147241455739_1_alg».proof.Proof.SemiDualCost

noncomputable section

namespace Cert.SemiDual

open Idealize.ShloMosaic Idealize.ShloMosaic.ValueIdx

/-- The value every minimum starts from (the f32 pattern of +∞), and the two scale constants (the patterns of 2 and ½):
    the same words on both sides, never evaluated. -/
abbrev posInf : EReal := Ideal.ofBits .f32 0x7F800000#32
abbrev two : EReal := Ideal.ofBits .f32 0x40000000#32
abbrev half : EReal := Ideal.ofBits .f32 0x3F000000#32

/-- The reduced cost of source row r against target row c, from the whole arrays. -/
def arrCost (x : FVec Ideal ⟨2, ![32768, 256]⟩ .f32) (y : FVec Ideal ⟨2, ![8192, 256]⟩ .f32) (ψ : FVec Ideal ⟨1, ![8192]⟩ .f32)
    (r : Fin 32768) (c : Fin 8192) : EReal :=
  cost two half (fun r d => x (ix2 r d)) (fun c d => y (ix2 c d)) (fun c => ψ (ix1 c)) r c

/-- Each source row's least reduced cost over all 8192 targets. -/
def rowLeast (x : FVec Ideal ⟨2, ![32768, 256]⟩ .f32) (y : FVec Ideal ⟨2, ![8192, 256]⟩ .f32) (ψ : FVec Ideal ⟨1, ![8192]⟩ .f32) :
    FVec Ideal ⟨1, ![32768]⟩ .f32 :=
  fun i => (Finset.univ : Finset (Fin 8192)).fold min posInf (arrCost x y ψ (i 0))

/-- The reduced cost inside one tile: row p of a block of x against row q of a block of y, the potential from a one-row block. -/
def tileCost (xb yb : FVec Ideal ⟨2, ![2048, 256]⟩ .f32) (pb : FVec Ideal ⟨2, ![1, 2048]⟩ .f32) (p q : Fin 2048) : EReal :=
  cost two half (fun p d => xb (ix2 p d)) (fun q d => yb (ix2 q d)) (fun q => pb (ix2 (0 : Fin 1) q)) p q

/-- Row p's least reduced cost inside one tile. -/
def tileLeast (xb yb : FVec Ideal ⟨2, ![2048, 256]⟩ .f32) (pb : FVec Ideal ⟨2, ![1, 2048]⟩ .f32) (p : Fin 2048) : EReal :=
  (Finset.univ : Finset (Fin 2048)).fold min posInf (tileCost xb yb pb p)

/-- When the blocks are row block i of x, row block j of y and columns 2048 j … of ψ, row p's minimum inside the tile is
    the minimum of the whole arrays' costs of row 2048 i + p over the columns of tile j. -/
theorem tileLeast_eq (x : FVec Ideal ⟨2, ![32768, 256]⟩ .f32) (y : FVec Ideal ⟨2, ![8192, 256]⟩ .f32) (ψ : FVec Ideal ⟨1, ![8192]⟩ .f32)
    (xb yb : FVec Ideal ⟨2, ![2048, 256]⟩ .f32) (pb : FVec Ideal ⟨2, ![1, 2048]⟩ .f32) (i : Fin 16) (j : Fin 4) (p : Fin 2048)
    (hx : ∀ p d, xb (ix2 p d) = x (ix2 (blockRow i p) d)) (hy : ∀ q d, yb (ix2 q d) = y (ix2 (tileCol j q) d))
    (hp : ∀ q, pb (ix2 (0 : Fin 1) q) = ψ (ix1 (tileCol j q))) :
    tileLeast xb yb pb p = leastInTile posInf (arrCost x y ψ (blockRow i p)) j := by
  unfold tileLeast leastInTile
  refine Finset.fold_congr fun q _ => ?_
  unfold tileCost arrCost cost
  simp only [hx, hy, hp]

/-- The objective from the rows' least costs and the potential: the mean of the least costs plus the mean of ψ, each a sum
    from zero divided by the count. (The three shape facts are the ones the programs state for their own sums.) -/
def objective (least : FVec Ideal ⟨1, ![32768]⟩ .f32) (ψ : FVec Ideal ⟨1, ![8192]⟩ .f32)
    (h1 : (⟨1, ![32768]⟩ : Shape).ReducesTo [0] ⟨0, ![]⟩) (h2 : (⟨1, ![8192]⟩ : Shape).ReducesTo [0] ⟨0, ![]⟩)
    (h0 : 0 < (⟨0, ![]⟩ : Shape).numel) : FVec Ideal ⟨0, ![]⟩ .f32 :=
  addf (Host.divf (Host.reduceAdd least (constant (F := Ideal) ⟨0, ![]⟩ .f32 0x00000000#32) h1 h0) (constant (F := Ideal) ⟨0, ![]⟩ .f32 0x47000000#32))
    (Host.divf (Host.reduceAdd ψ (constant (F := Ideal) ⟨0, ![]⟩ .f32 0x00000000#32) h2 h0) (constant (F := Ideal) ⟨0, ![]⟩ .f32 0x46000000#32))

end Cert.SemiDual

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KernelTile.lean ====
/-
  What the kernel body computes in one tile, at the extended reals, read entry by entry.

  The body holds a [2048, 256] block xb of x, a [2048, 256] block yb of y and a [1, 2048] block pb of ψ, and a [2048, 1]
  running minimum. It resets the running minimum to +∞ (first tile only) and then replaces it by
      min (running p) (min over q of ((∑ xb[p,·]²) + (∑ yb[q,·]²) − 2·∑ xb[p,·]·yb[q,·]) · ½ − pb[0,q]) :
  the row sums of squares are lane reductions from zero (a plain sum), the narrowing of the blocks to sixteen bits is the
  identity on extended reals, the matrix product into a zero accumulator is the sum over the 256 coordinates, the
  column vector, the transposed row vector and the row block of ψ are broadcast over the [2048, 2048] tile, and the
  lane minimum from +∞ is the minimum over the tile's columns.
-/
import proofs.«104257_j43147241455739_1_alg».proof.Proof.Gen.KernelIdeal.Skeleton
import proofs.«104257_j43147241455739_1_alg».proof.Proof.SemiDualArrays
import proofs.«104257_j43147241455739_1_alg».proof.Proof.LibLayout
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

noncomputable section

namespace Cert.KernelIdeal.TileValue

open Cert.KernelIdeal Cert.KernelIdeal.Gen
open Idealize.ShloMosaic Idealize.ShloMosaic.ValueIdx Cert.SemiDual Cert.LibLayout

/-- A lane minimum over one axis, at the extended reals: the fold of min from the accumulator's value over that axis's
    coordinates (the minimum's counterpart of the library's reading of a lane maximum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row p's sum of squares: the lane sum from zero of the block squared. -/
theorem rowSq_apply (v : FVec Ideal S2048x256 .f32) (p : Fin 2048) :
    multiReduction (F := Ideal) .add [1] S2048 (mulf v v) 0x00000000#32 reduces_S2048x256_S2048 (.inl rfl) rfl (ix1 p)
      = ∑ d : Fin 256, v (ix2 p d) * v (ix2 p d) := by
  refine (Ideal.multiReduction_add_single (mulf v v) 0x00000000#32 reduces_S2048x256_S2048 (.inl rfl) rfl (ix1 p)).trans ?_
  refine Finset.sum_congr rfl fun d _ => ?_
  have e : reduces_S2048x256_S2048.lift (ix1 p) d = ix2 p d :=
    funext fun a => Fin.ext (by match a with | ⟨0, _⟩ => rfl | ⟨1, _⟩ => rfl)
  rw [e]
  rfl

/-- Row p's minimum over the tile's 2048 columns, from +∞. -/
theorem rowMin_apply (v : FVec Ideal S2048x2048 .f32) (p : Fin 2048) :
    multiReduction (F := Ideal) .minimumf [1] S2048 v 0x7F800000#32 reduces_S2048x2048_S2048 (.inl rfl) rfl (ix1 p)
      = (Finset.univ : Finset (Fin 2048)).fold min posInf (fun q => v (ix2 p q)) := by
  refine (multiReduction_minimumf_single v 0x7F800000#32 reduces_S2048x2048_S2048 (.inl rfl) rfl (ix1 p)).trans ?_
  show (Finset.univ : Finset (Fin 2048)).fold min posInf (v ∘ reduces_S2048x2048_S2048.lift (ix1 p)) = _
  refine Finset.fold_congr fun q _ => ?_
  have e : reduces_S2048x2048_S2048.lift (ix1 p) q = ix2 p q :=
    funext fun a => Fin.ext (by match a with | ⟨0, _⟩ => rfl | ⟨1, _⟩ => rfl)
  exact congrArg v e

/-! The matrix product's operand indices at output entry (p, q) and contraction coordinate k are (p, k) and (k, q). -/

theorem lhs_cross_0 (i : S2048x2048.Idx) (q : dot_S2048x256_S256x2048_S2048x2048_1_0_0_1_n_n.contr.Idx) :
    (dot_S2048x256_S256x2048_S2048x2048_1_0_0_1_n_n.lhsIdx i q 0).val = (i 0).val := by
  unfold DotDims.lhsIdx
  rw [dif_neg (show ¬(0 : Fin S2048x256.rank) ∈ dot_S2048x256_S256x2048_S2048x2048_1_0_0_1_n_n.lhsBatch by decide), dif_pos (show (0 : Fin S2048x256.rank) ∈ dot_S2048x256_S256x2048_S2048x2048_1_0_0_1_n_n.lhsNonContracting by decide)]
  rfl
theorem lhs_cross_1 (i : S2048x2048.Idx) (q : dot_S2048x256_S256x2048_S2048x2048_1_0_0_1_n_n.contr.Idx) :
    (dot_S2048x256_S256x2048_S2048x2048_1_0_0_1_n_n.lhsIdx i q 1).val = (q ⟨0, by decide⟩).val :=
  dot_S2048x256_S256x2048_S2048x2048_1_0_0_1_n_n.lhsIdx_val_of_single rfl i q
theorem rhs_cross_0 (i : S2048x2048.Idx) (q : dot_S2048x256_S256x2048_S2048x2048_1_0_0_1_n_n.contr.Idx) :
    (dot_S2048x256_S256x2048_S2048x2048_1_0_0_1_n_n.rhsIdx i q 0).val = (q ⟨0, by decide⟩).val :=
  dot_S2048x256_S256x2048_S2048x2048_1_0_0_1_n_n.rhsIdx_val_of_single rfl i q
theorem rhs_cross_1 (i : S2048x2048.Idx) (q : dot_S2048x256_S256x2048_S2048x2048_1_0_0_1_n_n.contr.Idx) :
    (dot_S2048x256_S256x2048_S2048x2048_1_0_0_1_n_n.rhsIdx i q 1).val = (i 1).val := by
  unfold DotDims.rhsIdx
  rw [dif_neg (show ¬(1 : Fin S256x2048.rank) ∈ dot_S2048x256_S256x2048_S2048x2048_1_0_0_1_n_n.rhsBatch by decide), dif_pos (show (1 : Fin S256x2048.rank) ∈ dot_S2048x256_S256x2048_S2048x2048_1_0_0_1_n_n.rhsNonContracting by decide)]
  rfl

/-- The inner product of row p of xb with row q of yb: the blocks narrowed (the identity here), yb transposed, multiplied
    into a zero accumulator. -/
theorem cross_apply (x0 x1 : FVec Ideal S2048x256 .f32) (p q : Fin 2048) :
    matmul (F := Ideal) dot_S2048x256_S256x2048_S2048x2048_1_0_0_1_n_n none (truncf .bf16 x0 bitsLt_bf16_f32)
        (transpose S256x2048 [1, 0] (truncf .bf16 x1 bitsLt_bf16_f32) transposes_S2048x256_p1_0_S256x2048)
        (constant S2048x2048 .f32 0x00000000#32) (ix2 p q)
      = ∑ d : Fin 256, x0 (ix2 p d) * x1 (ix2 q d) := by
  refine (Ideal.matmul_constant_zero_apply dot_S2048x256_S256x2048_S2048x2048_1_0_0_1_n_n none _ _ (ix2 p q)).trans ?_
  rw [← Equiv.sum_comp (contrEquiv1 dot_S2048x256_S256x2048_S2048x2048_1_0_0_1_n_n 256 rfl rfl).symm]
  refine Finset.sum_congr rfl fun k _ => ?_
  have hk := contrEquiv1_symm_val dot_S2048x256_S256x2048_S2048x2048_1_0_0_1_n_n 256 rfl rfl k
  have el : dot_S2048x256_S256x2048_S2048x2048_1_0_0_1_n_n.lhsIdx (ix2 p q) ((contrEquiv1 dot_S2048x256_S256x2048_S2048x2048_1_0_0_1_n_n 256 rfl rfl).symm k) = ix2 p k := funext fun a => Fin.ext (by
    match a with
    | ⟨0, _⟩ => exact lhs_cross_0 _ _
    | ⟨1, _⟩ => exact (lhs_cross_1 _ _).trans hk)
  have er : dot_S2048x256_S256x2048_S2048x2048_1_0_0_1_n_n.rhsIdx (ix2 p q) ((contrEquiv1 dot_S2048x256_S256x2048_S2048x2048_1_0_0_1_n_n 256 rfl rfl).symm k) = ix2 k q := funext fun a => Fin.ext (by
    match a with
    | ⟨0, _⟩ => exact (rhs_cross_0 _ _).trans hk
    | ⟨1, _⟩ => exact rhs_cross_1 _ _)
  rw [el, er]
  refine congrArg (fun b : EReal => x0 (ix2 p k) * b) ?_
  exact transpose_ix2_apply (truncf .bf16 x1 bitsLt_bf16_f32) transposes_S2048x256_p1_0_S256x2048 k q

/-- The reset stores +∞ in every entry. -/
theorem reset_eq : (k0_pay1 (F := Ideal)) = fun _ => posInf := by
  unfold k0_pay1
  exact shapeCast_self _ _

/-- The update stores, at row p, the smaller of the running minimum and row p's least reduced cost inside the tile. -/
theorem update_apply (x0 x1 : FVec Ideal S2048x256 .f32) (x2 : FVec Ideal S1x2048 .f32) (acc : FVec Ideal S2048x1 .f32)
    (p : Fin 2048) (u : Fin 1) :
    k0_pay2 (F := Ideal) x0 x1 x2 acc (ix2 p u) = min (acc (ix2 p u)) (tileLeast x0 x1 x2 p) := by
  unfold k0_pay2
  dsimp only
  refine (congrFun (shapeCast_self _ _) (ix2 p u)).trans ?_
  refine (minimumf_apply _ _ _).trans ?_
  refine congrArg (fun b : EReal => min (acc (ix2 p u)) b) ?_
  refine (shapeCast_a_a1_apply _ _ p u).trans ?_
  refine (rowMin_apply _ p).trans ?_
  unfold tileLeast
  refine Finset.fold_congr fun q _ => ?_
  unfold tileCost cost
  refine (subf_apply _ _ _).trans ?_
  refine congrArg₂ (fun a b : EReal => a - b) ?_ ?_
  · refine (mulf_apply _ _ _).trans ?_
    refine congrArg₂ (fun a b : EReal => a * b) ?_ rfl
    refine (subf_apply _ _ _).trans ?_
    refine congrArg₂ (fun a b : EReal => a - b) ?_ ?_
    · refine (addf_apply _ _ _).trans ?_
      refine congrArg₂ (fun a b : EReal => a + b) ?_ ?_
      · refine (broadcastTo_a1_ab_apply _ _ p q).trans ?_
        refine (shapeCast_a_a1_apply _ _ p 0).trans ?_
        exact rowSq_apply x0 p
      · refine (broadcastTo_1b_ab_apply _ _ p q).trans ?_
        refine (transpose_ix2_apply _ _ (0 : Fin 1) q).trans ?_
        refine (shapeCast_a_a1_apply _ _ q 0).trans ?_
        exact rowSq_apply x1 q
    · refine (mulf_apply _ _ _).trans ?_
      refine congrArg₂ (fun a b : EReal => a * b) rfl ?_
      exact cross_apply x0 x1 p q
  · refine (broadcastTo_1b_ab_apply _ _ p q).trans ?_
    exact congrFun (shapeCast_self _ _) _

end Cert.KernelIdeal.TileValue

end
-- ==== Proof.KernelRunning.lean ====
/-
  The running minimum across the grid, at the extended reals.

  The grid is 16 row blocks by 4 column tiles, walked row block by row block: point t is tile t mod 4 of row block t / 4.
  At a row block's first tile the body resets the carried [2048, 1] buffer to +∞ and folds the tile's row minima in; at
  each later tile it folds that tile's row minima into what the tile before left; at the last tile it also copies the
  buffer out. So after point t the buffer holds, at row p, the least reduced cost of row 2048·(t/4) + p over the columns
  of tiles 0 … t mod 4 — by induction on the point —, and what the last tile writes out is that with all four tiles.
-/
import proofs.«104257_j43147241455739_1_alg».proof.Proof.Gen.KernelIdeal.Frame
import proofs.«104257_j43147241455739_1_alg».proof.Proof.KernelTile
import Idealize.ShloMosaic.Lib.Pipeline.Value
import Idealize.ShloMosaic.Lib.Tactic

set_option maxRecDepth 16384

noncomputable section

namespace Cert.KernelIdeal.Running

open Cert.KernelIdeal Cert.KernelIdeal.Gen Cert.KernelIdeal.TileValue
open Idealize.ShloMosaic Idealize.ShloMosaic.TcCoe Idealize.ShloMosaic.ValueIdx Idealize.ShloMosaic.Tactic Idealize.SL.Sem
open Cert.SemiDual

theorem hz : (![0, 0] : Fin 2 → Nat) = fun _ => 0 := funext fun a => by fin_cases a <;> rfl

/-! ## What each control case leaves, as the body's stored values -/

section Stored

variable {F : FTy → Type} [FloatOps F]

/-- First tile of a row block: the carried buffer ends at the update of the freshly stored reset. -/
theorem carried_first (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .f32) (x1 : Vec F S2048x256 .f32) (x2 : Vec F S1x2048 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread,
    View.ld_unit_zero (S := S2048x256) hz, View.ld_unit_zero (S := S1x2048) hz]

/-- A middle tile: the carried buffer ends at the update of what it held. -/
theorem carried_middle (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .f32) (x1 : Vec F S2048x256 .f32) (x2 : Vec F S1x2048 .f32) (xs0 : Vec F S2048x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S2048x256) hz, View.ld_unit_zero (S := S1x2048) hz, View.ld_unit_zero (S := S2048x1) hz]

/-- The last tile: the carried buffer likewise, -/
theorem carried_last (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .f32) (x1 : Vec F S2048x256 .f32) (x2 : Vec F S1x2048 .f32) (xs0 : Vec F S2048x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S2048x256) hz, View.ld_unit_zero (S := S1x2048) hz, View.ld_unit_zero (S := S2048x1) hz]

/-- and the output block is the carried buffer read back after its update: the same value. -/
theorem written_last (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .f32) (x1 : Vec F S2048x256 .f32) (x2 : Vec F S1x2048 .f32) (xs0 : Vec F S2048x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S2048x1) _ hz]
  simp only [View.readAt_eq_ld, harg2.read_unread, harg3.read_unread, harg4.read_unread, harg6.read_unread,
    View.ld_unit_zero (S := S2048x256) hz, View.ld_unit_zero (S := S1x2048) hz, View.ld_unit_zero (S := S2048x1) hz]

end Stored

/-! ## The arrays, the blocks and the grid -/

variable (m : (ℓ : Loc nD τ sig) → Buf (Elt Ideal) ℓ)

/-- The three arrays the region reads, as it finds them: x, y and ψ as one row. -/
abbrev xArr (c : Dev nD) : FVec Ideal S32768x256 .f32 := V m c main_arg0
abbrev yArr (c : Dev nD) : FVec Ideal S8192x256 .f32 := V m c main_arg1
abbrev psiRow (c : Dev nD) : FVec Ideal S1x8192 .f32 := V m c main_v0
/-- ψ as a vector: the one row's entries. -/
def psiVec (c : Dev nD) : FVec Ideal S8192 .f32 := fun i => psiRow m c (ix2 (0 : Fin 1) (i 0))

/-- The blocks point t reads. -/
abbrev xBlk (c : Dev nD) (t : Fin cfg0.N) : FVec Ideal S2048x256 .f32 := iblk m c 0 t
abbrev yBlk (c : Dev nD) (t : Fin cfg0.N) : FVec Ideal S2048x256 .f32 := iblk m c 1 t
abbrev psiBlk (c : Dev nD) (t : Fin cfg0.N) : FVec Ideal S1x2048 .f32 := iblk m c 2 t

/-- Point t's row block and column tile. -/
def rowBlk (t : Fin cfg0.N) : Fin 16 := ⟨t.val / 4, by have := t.isLt; have hN : cfg0.N = 64 := N_0; omega⟩
def colTile (t : Fin cfg0.N) : Fin 4 := ⟨t.val % 4, Nat.mod_lt _ (by decide)⟩

/-- The printed index maps over the grid: x moves with the row block, y and ψ with the column tile, the output with the
    row block. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = 0 :=
  (by decide +kernel : ∀ t : Fin grid0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = 0)

/-- Row p of point t's block of x is row 2048·(t/4) + p of x. -/
theorem xBlk_apply (c : Dev nD) (t : Fin cfg0.N) (p : Fin 2048) (d : Fin 256) :
    xBlk m c t (ix2 p d) = xArr m c (ix2 (blockRow (rowBlk t) p) d) := by
  obtain ⟨e0, e1, -⟩ := idx_facts t
  show V m c main_arg0 (((cfg0.win 0).blk t).view.emb (ix2 p d)) = V m c main_arg0 (ix2 (blockRow (rowBlk t) p) d)
  refine congrArg (V m c main_arg0) (funext fun a => Fin.ext ?_)
  match a with
  | ⟨0, _⟩ => show win0_0.index t (0 : Fin 2) * 2048 + 1 * p.val = 2048 * (t.val / 4) + p.val; omega
  | ⟨1, _⟩ => show win0_0.index t (1 : Fin 2) * 256 + 1 * d.val = d.val; omega

/-- Row q of point t's block of y is row 2048·(t mod 4) + q of y. -/
theorem yBlk_apply (c : Dev nD) (t : Fin cfg0.N) (q : Fin 2048) (d : Fin 256) :
    yBlk m c t (ix2 q d) = yArr m c (ix2 (tileCol (colTile t) q) d) := by
  obtain ⟨-, -, e0, e1, -⟩ := idx_facts t
  show V m c main_arg1 (((cfg0.win 1).blk t).view.emb (ix2 q d)) = V m c main_arg1 (ix2 (tileCol (colTile t) q) d)
  refine congrArg (V m c main_arg1) (funext fun a => Fin.ext ?_)
  match a with
  | ⟨0, _⟩ => show win0_1.index t (0 : Fin 2) * 2048 + 1 * q.val = 2048 * (t.val % 4) + q.val; omega
  | ⟨1, _⟩ => show win0_1.index t (1 : Fin 2) * 256 + 1 * d.val = d.val; omega

/-- Entry q of point t's block of ψ is ψ at 2048·(t mod 4) + q. -/
theorem psiBlk_apply (c : Dev nD) (t : Fin cfg0.N) (q : Fin 2048) :
    psiBlk m c t (ix2 (0 : Fin 1) q) = psiVec m c (ix1 (tileCol (colTile t) q)) := by
  obtain ⟨-, -, -, -, e0, e1, -⟩ := idx_facts t
  show V m c main_v0 (((cfg0.win 2).blk t).view.emb (ix2 (0 : Fin 1) q)) = V m c main_v0 (ix2 (0 : Fin 1) (tileCol (colTile t) q))
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 2048 + 1 * q.val = 2048 * (t.val % 4) + q.val; omega

/-! ## The carried buffer point by point -/

/-- At a row block's first tile the carried buffer is the update of the reset, -/
theorem carriedAt_first (c : Dev nD) (t : Fin cfg0.N) (h0 : t.val % 4 = 0) :
    (outsAt0 m c t.val t.isLt).2 = k0_pay2 (F := Ideal) (xBlk m c t) (yBlk m c t) (psiBlk m c t) (k0_pay1 (F := Ideal)) := by
  have h1 : ¬t.val % 4 = 3 := by omega
  rw [outsAt0_A m c t h0 h1]
  dsimp only
  exact carried_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- at every later tile the update of what the tile before left, -/
theorem carriedAt_later (c : Dev nD) (t : Fin cfg0.N) (h0 : ¬t.val % 4 = 0) :
    (outsAt0 m c t.val t.isLt).2 = k0_pay2 (F := Ideal) (xBlk m c t) (yBlk m c t) (psiBlk m c t)
      (outsAt0 m c (t.val - 1) (Nat.lt_of_le_of_lt (Nat.sub_le _ _) t.isLt)).2 := by
  by_cases h1 : t.val % 4 = 3
  · rw [outsAt0_C m c t h0 h1]
    dsimp only
    exact carried_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact carried_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- and at the last tile the output block holds what the carried buffer holds. -/
theorem writtenAt_last (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (written_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (carried_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm

/-- The reduced costs of row p of point t's row block, over all columns. -/
abbrev rowCosts (c : Dev nD) (t : Fin cfg0.N) (p : Fin 2048) : Fin 8192 → EReal :=
  arrCost (xArr m c) (yArr m c) (psiVec m c) (blockRow (rowBlk t) p)

/-- Row p's minimum inside point t's tile is the least of the row's costs over that tile's columns. -/
theorem tileLeastAt (c : Dev nD) (t : Fin cfg0.N) (p : Fin 2048) :
    tileLeast (xBlk m c t) (yBlk m c t) (psiBlk m c t) p = leastInTile posInf (rowCosts m c t p) (colTile t) :=
  tileLeast_eq (xArr m c) (yArr m c) (psiVec m c) (xBlk m c t) (yBlk m c t) (psiBlk m c t) (rowBlk t) (colTile t) p
    (xBlk_apply m c t) (yBlk_apply m c t) (psiBlk_apply m c t)

/-- THE RUNNING MINIMUM: after point t the carried buffer holds, at row p, the least of the row's reduced costs over the
    columns of tiles 0 … t mod 4. By induction on the point. -/
theorem carried_eq (c : Dev nD) : ∀ (n : ℕ) (h : n < cfg0.N) (p : Fin 2048) (u : Fin 1),
    (outsAt0 m c n h).2 (ix2 p u) = leastUpTo posInf (rowCosts m c ⟨n, h⟩ p) (colTile ⟨n, h⟩)
  | 0, h, p, u => by
    refine (congrFun (carriedAt_first m c ⟨0, h⟩ rfl) (ix2 p u)).trans ?_
    refine (update_apply _ _ _ _ p u).trans ?_
    rw [tileLeastAt m c ⟨0, h⟩ p, reset_eq]
    exact (leastUpTo_first posInf _).symm
  | n + 1, h, p, u => by
    by_cases h0 : (n + 1) % 4 = 0
    · refine (congrFun (carriedAt_first m c ⟨n + 1, h⟩ h0) (ix2 p u)).trans ?_
      refine (update_apply _ _ _ _ p u).trans ?_
      rw [tileLeastAt m c ⟨n + 1, h⟩ p, reset_eq]
      have hc : colTile ⟨n + 1, h⟩ = 0 := Fin.ext h0
      rw [hc]
      exact (leastUpTo_first posInf _).symm
    · refine (congrFun (carriedAt_later m c ⟨n + 1, h⟩ h0) (ix2 p u)).trans ?_
      refine (update_apply _ _ _ _ p u).trans ?_
      rw [tileLeastAt m c ⟨n + 1, h⟩ p]
      show min ((outsAt0 m c n (Nat.lt_of_succ_lt h)).2 (ix2 p u)) _ = _
      rw [carried_eq c n (Nat.lt_of_succ_lt h) p u]
      have hr : rowBlk ⟨n, Nat.lt_of_succ_lt h⟩ = rowBlk ⟨n + 1, h⟩ := Fin.ext (by show n / 4 = (n + 1) / 4; omega)
      show min (leastUpTo posInf (arrCost (xArr m c) (yArr m c) (psiVec m c) (blockRow (rowBlk ⟨n, Nat.lt_of_succ_lt h⟩) p)) (colTile ⟨n, Nat.lt_of_succ_lt h⟩)) _ = _
      rw [hr]
      exact (leastUpTo_next posInf _ (colTile ⟨n, Nat.lt_of_succ_lt h⟩) (colTile ⟨n + 1, h⟩) (by show (n + 1) % 4 = n % 4 + 1; omega)).symm

/-- What a row block's last tile writes out: at row p, the least of the row's reduced costs over every column. -/
theorem written_eq (c : Dev nD) (t : Fin cfg0.N) (h1 : t.val % 4 = 3) (p : Fin 2048) (u : Fin 1) :
    (outsAt0 m c t.val t.isLt).1 (ix2 p u) = rowLeast (xArr m c) (yArr m c) (psiVec m c) (ix1 (blockRow (rowBlk t) p)) := by
  rw [writtenAt_last m c t h1, carried_eq m c t.val t.isLt p u]
  have hc : colTile t = 3 := Fin.ext h1
  show leastUpTo posInf (rowCosts m c t p) (colTile t) = _
  rw [hc]
  exact leastUpTo_last posInf _

end Cert.KernelIdeal.Running

end
-- ==== Proof.LibColumn.lean ====
/-
  A general reading lemma: a column [a, 1] with its unit axis dropped reads, at p, the column's entry of row p.
-/
import Idealize.ShloMosaic.Lib.ValueLayout

noncomputable section

namespace Cert.LibColumn

open Idealize.ShloMosaic Idealize.ShloMosaic.ValueIdx

variable {α : Type}

/-- An [a, 1] array cast to [a] reads, at p, the operand at (p, 0): the same row-major position. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumn

end
-- ==== Proof.KernelResult.lean ====
/-
  The kernel's result, at the extended reals.

  Each row block's last tile writes its [2048, 1] block of row minima into rows 2048·i … of the [32768, 1] result array,
  and the sixteen blocks tile that array: it ends holding every row's least reduced cost. The host lines after the region
  drop the unit axis, sum the column from zero and divide by 32768, sum ψ from zero and divide by 8192, and add: the
  objective. The one host line before the region only gives ψ a leading unit axis, so the row the region reads is ψ.
-/
import proofs.«104257_j43147241455739_1_alg».proof.Proof.Gen.KernelIdeal.Frame
import proofs.«104257_j43147241455739_1_alg».proof.Proof.Gen.KernelIdeal.Points
import proofs.«104257_j43147241455739_1_alg».proof.Proof.KernelRunning
import Idealize.ShloMosaic.Lib.Pipeline.Value
import Idealize.ShloMosaic.Lib.StableHlo.Run
import Idealize.ShloMosaic.Lib.ValueLayout
import Idealize.ShloMosaic.Lib.Tactic
import proofs.«104257_j43147241455739_1_alg».proof.Proof.LibColumn

set_option maxRecDepth 16384

noncomputable section

namespace Cert.KernelIdeal.Result

open Cert.KernelIdeal Cert.KernelIdeal.Gen Cert.KernelIdeal.Running
open Idealize.ShloMosaic Idealize.ShloMosaic.TcCoe Idealize.ShloMosaic.ValueIdx Idealize.ShloMosaic.Tactic Idealize.SL.Sem
open Idealize.ShloMosaic.Pipeline (Dat)
open Cert.SemiDual Cert.LibColumn

variable (m : (ℓ : Loc nD τ sig) → Buf (Elt Ideal) ℓ) (ρ : Dev nD → PrngReg)

/-- The column of every row's least reduced cost. -/
def leastCol (c : Dev nD) : FVec Ideal S32768x1 .f32 :=
  fun i => rowLeast (xArr m c) (yArr m c) (psiVec m c) (ix1 (i 0))

/-- What a row block's last tile writes out, at any entry of the block. -/
theorem written_apply (c : Dev nD) (t : Fin cfg0.N) (h1 : t.val % 4 = 3) (j : S2048x1.Idx) :
    (outsAt0 m c t.val t.isLt).1 j = rowLeast (xArr m c) (yArr m c) (psiVec m c) (ix1 (blockRow (rowBlk t) (j 0))) := by
  obtain ⟨p, u, rfl⟩ : ∃ (p : Fin 2048) (u : Fin 1), j = ix2 p u := ⟨j 0, j 1, eq_ix2 j⟩
  exact written_eq m c t h1 p u

/-- The block a write-back writes is that block of the column of least costs. -/
theorem flushed_eq (c : Dev nD) (t : Fin cfg0.N) (hf : (cfg0.win 3).flush t = true) :
    (dats m 0 c).flushed 3 t = ((cfg0.win 3).blk t).view.read (Elt Ideal) (leastCol m c) := by
  have h1 : t.val % 4 = 3 := (flush0_3 t).mp hf
  obtain ⟨-, -, -, -, -, -, e0, e1⟩ := idx_facts t
  show (cfg0.win 3).cut (grid0.coords t) ((dats m 0 c).after 3 t) = _
  rw [after0_3]
  funext j
  show (outsAt0 m c t.val t.isLt).1 j = leastCol m c (((cfg0.win 3).blk t).view.emb j)
  refine (written_apply m c t h1 j).trans ?_
  unfold leastCol
  refine congrArg (fun r : Fin 32768 => rowLeast (xArr m c) (yArr m c) (psiVec m c) (ix1 r)) (Fin.ext ?_)
  show 2048 * (t.val / 4) + (j 0).val = win0_3.index t (0 : Fin 2) * 2048 + 1 * (j 0).val
  omega

/-- An entry of the result array lies in point t's block iff each coordinate lies in the block's range. -/
theorem mem_blk (t : Fin cfg0.N) (i : S32768x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v1).slice (win0_3.rect t)).set ↔ _
  rw [View.set_slice_whole, Rect.mem_set_unit]
  exact Iff.rfl

/-- The result array after the region: every row's least reduced cost (row r is written by the last tile of row block r / 2048). -/
theorem final (c : Dev nD) : (dats m 0 c).arrAt 3 cfg0.N = leastCol m c :=
  (dats m 0 c).arrAt_eq_of_cover 3 (leastCol m c) (flushed_eq m c) fun i => by
    have hN : cfg0.N = 64 := N_0
    have hi0 : (i 0).val < 32768 := (i 0).isLt
    have hi1 : (i 1).val < 1 := (i 1).isLt
    have ht : 4 * ((i 0).val / 2048) + 3 < cfg0.N := by omega
    obtain ⟨-, -, -, -, -, -, e0, e1⟩ := idx_facts ⟨4 * ((i 0).val / 2048) + 3, ht⟩
    refine ⟨⟨4 * ((i 0).val / 2048) + 3, ht⟩, (flush0_3 _).mpr (by show (4 * ((i 0).val / 2048) + 3) % 4 = 3; omega), ?_⟩
    rw [mem_blk]
    have e0' : win0_3.index ⟨4 * ((i 0).val / 2048) + 3, ht⟩ (0 : Fin 2) = (4 * ((i 0).val / 2048) + 3) / 4 := e0
    intro a
    match a with
    | ⟨0, _⟩ =>
      show win0_3.index ⟨4 * ((i 0).val / 2048) + 3, ht⟩ (0 : Fin 2) * 2048 ≤ (i 0).val ∧ (i 0).val < win0_3.index ⟨4 * ((i 0).val / 2048) + 3, ht⟩ (0 : Fin 2) * 2048 + 2048
      omega
    | ⟨1, _⟩ =>
      show win0_3.index ⟨4 * ((i 0).val / 2048) + 3, ht⟩ (1 : Fin 2) * 1 ≤ (i 1).val ∧ (i 1).val < win0_3.index ⟨4 * ((i 0).val / 2048) + 3, ht⟩ (1 : Fin 2) * 1 + 1
      omega

/-- The row the region reads is ψ with a leading unit axis. -/
theorem psiRow_eq (c : Dev nD) :
    psiRow m c = shapeCast S1x8192 (m ((c : Thread nD τ).loc main_arg2)) shapeCasts_S8192_S1x8192 := by
  show StableHlo.after hostOps0 (fun b => m (c, b)) (Proc.devRef .tc main_v0) = _
  after_results
  rfl

/-- So its entries are ψ's. -/
theorem psiVec_eq (c : Dev nD) : psiVec m c = m ((c : Thread nD τ).loc main_arg2) := by
  funext i
  obtain ⟨q, rfl⟩ : ∃ q : Fin 8192, i = ix1 q := ⟨i 0, eq_ix1 i⟩
  unfold psiVec
  rw [psiRow_eq]
  exact shapeCast_a_1a_apply _ _ (0 : Fin 1) q

/-- The column of least costs with its unit axis dropped is the rows' least costs, of the arrays as launched: no host line
    before the region writes x or y, and the row the region reads is ψ. -/
theorem leastCol_cast (c : Dev nD) :
    shapeCast S32768 (leastCol m c) shapeCasts_S32768x1_S32768
      = rowLeast (m ((c : Thread nD τ).loc main_arg0)) (m ((c : Thread nD τ).loc main_arg1)) (m ((c : Thread nD τ).loc main_arg2)) := by
  funext i
  obtain ⟨r, rfl⟩ : ∃ r : Fin 32768, i = ix1 r := ⟨i 0, eq_ix1 i⟩
  refine (shapeCast_a1_a_apply _ _ r).trans ?_
  unfold leastCol
  rw [psiVec_eq]
  show rowLeast (V m c main_arg0) (V m c main_arg1) _ _ = _
  rw [V_main_arg0, V_main_arg1]

/-- The result buffer after the host lines that follow the region: the objective of the rows' least costs and ψ. -/
theorem result_eq (c : Dev nD) :
    Pipeline.afterTail₀ cfgs (dats m) 0 (V0 m) [hostOps1] c main_v7
      = objective (rowLeast (m ((c : Thread nD τ).loc main_arg0)) (m ((c : Thread nD τ).loc main_arg1)) (m ((c : Thread nD τ).loc main_arg2)))
          (m ((c : Thread nD τ).loc main_arg2)) reducesTo_S32768_S_d0 reducesTo_S8192_S_d0 h_S_ := by
  -- after the region the result array holds the column of least costs, and ψ is as launched
  have hv1 : Pipeline.withArrays (cfgs 0).spec c (V0 m c) (fun w => (dats m 0 c).arrAt w (cfgs 0).N) (Proc.devRef .tc main_v1) = leastCol m c :=
    (Pipeline.withArrays_arr spec0 launch0.win.arr_inj c _ _ 3).trans (final m c)
  have hp : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  unfold Pipeline.afterTail₀
  show StableHlo.after hostOps1 _ (Proc.devRef .tc main_v7) = _
  after_results
  rw [hv1, hp]
  show addf (Host.divf (Host.reduceAdd (shapeCast S32768 (leastCol m c) shapeCasts_S32768x1_S32768) _ reducesTo_S32768_S_d0 h_S_) _) _ = _
  rw [leastCol_cast]
  rfl

/-- THE RUN, READ: every weakly fair execution ends with the result at the objective of the launched arrays, the
    arguments unchanged. -/
theorem run : θ_run defs (onTc (τ := τ) (main (F := Ideal))) ⟨m, fun _ => 0, ρ⟩ fun r => ∀ c : Dev nD,
      r.2.mem ((c.tc : Thread nD τ).loc main_v7)
        = objective (rowLeast (m ((c : Thread nD τ).loc main_arg0)) (m ((c : Thread nD τ).loc main_arg1)) (m ((c : Thread nD τ).loc main_arg2)))
            (m ((c : Thread nD τ).loc main_arg2)) reducesTo_S32768_S_d0 reducesTo_S8192_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.ReferenceValue.lean ====
/-
  The reference at the extended reals, read index by index: its [32768, 8192] matrix of reduced costs holds, at (r, c),
  (‖x_r‖² + ‖y_c‖² − 2·⟨x_r, y_c⟩) · ½ − ψ_c  (each squared norm and the inner product a sum over the 256 coordinates,
  the host's sums starting from zero), its row minimum is the least of row r over all 8192 columns from +∞, and its
  result is the objective of those minima and ψ.
-/
import proofs.«104257_j43147241455739_1_alg».proof.Proof.Gen.ReferenceIdeal.Read
import proofs.«104257_j43147241455739_1_alg».proof.Proof.SemiDualArrays
import Idealize.ShloMosaic.Lib.Pipeline.Value
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Cert.SemiDual

/-- Entry (r, c) of the matrix the reference minimises over is the reduced cost of row r against column c. -/
theorem reducedCost_apply (x0 : FVec Ideal S32768x256 .f32) (x1 : FVec Ideal S8192x256 .f32) (x2 : FVec Ideal S8192 .f32)
    (r : Fin 32768) (c : Fin 8192) :
    val_main_v18 (F := Ideal) x0 x1 x2 (ix2 r c) = arrCost x0 x1 x2 r c := by
  -- the composed index maps of the broadcasts, the transpose and the product, at (r, c)
  have e1 : ∀ k : Fin 256, idx_main_v1 (idx_main_v2 (idx_main_v8 (ix2 r c))) k = ix2 r k := fun k =>
    funext fun a => Fin.ext (by match a with | ⟨0, _⟩ => rfl | ⟨1, _⟩ => rfl)
  have e2 : ∀ k : Fin 256, idx_main_v4 (idx_main_v5 (idx_main_v9 (ix2 r c))) k = ix2 c k := fun k =>
    funext fun a => Fin.ext (by match a with | ⟨0, _⟩ => rfl | ⟨1, _⟩ => rfl)
  have e3 : ∀ k : Fin 256, lidx_main_v7 (ix2 r c) k = ix2 r k := fun k =>
    funext fun a => Fin.ext (by match a with | ⟨0, _⟩ => rfl | ⟨1, _⟩ => rfl)
  have e4 : ∀ k : Fin 256, idx_main_v6 (ridx_main_v7 (ix2 r c) k) = ix2 c k := fun k =>
    funext fun a => Fin.ext (by match a with | ⟨0, _⟩ => rfl | ⟨1, _⟩ => rfl)
  have e5 : idx_main_v16 (idx_main_v17 (ix2 r c)) = ix1 c :=
    funext fun a => Fin.ext (by match a with | ⟨0, _⟩ => rfl)
  rw [val_main_v18_apply, val_main_v15_apply, val_main_v13_apply, val_main_v10_apply, val_main_v12_apply,
    val_main_v8_apply, val_main_v2_apply, val_main_v1_apply, val_main_v9_apply, val_main_v5_apply, val_main_v4_apply,
    val_main_v11_apply, val_main_v7_apply, val_main_v14_apply, val_main_v17_apply, val_main_v16_apply]
  simp only [e1, e2, e3, e4, e5, val_main_v0_apply, val_main_v3_apply, val_main_v6_apply, val_main_cst_apply,
    val_main_cst_0_apply, val_main_cst_1_apply, val_main_cst_2_apply, Ideal.mulf_def, Ideal.addf_def, Ideal.subf_def,
    Ideal.ofBits_def, Ideal.ofBits_zero_f32, zero_add]
  rfl

/-- The reference's row minima are each row's least reduced cost over all the columns. -/
theorem rowLeast_eq (x0 : FVec Ideal S32768x256 .f32) (x1 : FVec Ideal S8192x256 .f32) (x2 : FVec Ideal S8192 .f32) :
    val_main_v19 (F := Ideal) x0 x1 x2 = rowLeast x0 x1 x2 := by
  funext i
  obtain ⟨r, rfl⟩ : ∃ r : Fin 32768, i = ix1 r := ⟨i 0, eq_ix1 i⟩
  unfold val_main_v19 rowLeast
  have hR : S32768x8192.Reduces [1] S32768 := by decide
  rw [Host.reduce_eq_fold_single FloatOps.minimumf _ _ reducesTo_S32768x8192_S32768_d1 hR h_S_]
  show (Finset.univ : Finset (Fin 8192)).fold min posInf (val_main_v18 (F := Ideal) x0 x1 x2 ∘ hR.lift (ix1 r)) = _
  refine Finset.fold_congr fun c _ => ?_
  show val_main_v18 (F := Ideal) x0 x1 x2 (hR.lift (ix1 r) c) = _
  rw [show hR.lift (ix1 r) c = ix2 r c from funext fun a => Fin.ext (by match a with | ⟨0, _⟩ => rfl | ⟨1, _⟩ => rfl)]
  exact reducedCost_apply x0 x1 x2 r c

/-- The reference's result is the objective of the rows' least costs and ψ. -/
theorem result_eq (x0 : FVec Ideal S32768x256 .f32) (x1 : FVec Ideal S8192x256 .f32) (x2 : FVec Ideal S8192 .f32) :
    val_main_v24 (F := Ideal) x0 x1 x2
      = objective (rowLeast x0 x1 x2) x2 reducesTo_S32768_S_d0 reducesTo_S8192_S_d0 h_S_ := by
  rw [← rowLeast_eq]
  rfl

end Cert.ReferenceIdeal.RefValue

end
-- ==== Proof.lean ====
/-
  The semi-dual optimal-transport objective, computed two ways, is one number at the extended reals.

  x is [32768, 256], y is [8192, 256], ψ is [8192]. Both programs form the reduced cost
      cost r c = (‖x_r‖² + ‖y_c‖² − 2·⟨x_r, y_c⟩) · ½ − ψ_c ,
  keep each row's least cost over the 8192 columns (a minimum from +∞), and return
      (0 + ∑_r least r) / 32768 + (0 + ∑_c ψ_c) / 8192.
  The reference does this on whole arrays. The kernel walks a 16 × 4 grid of [2048, 2048] tiles: for each row block it
  resets a carried column to +∞ at the first tile, folds each tile's row minima into it, and writes the column out at
  the fourth tile; the sixteen written blocks tile the [32768, 1] result, which the host lines after the region sum.
  Its narrowing of the blocks to sixteen bits is the identity at the extended reals and its matrix product into a zero
  accumulator is the same sum over the 256 coordinates as the reference's product, so tile by tile the entries are the
  same reduced costs (proof/Proof/KernelTile.lean, ReferenceValue.lean). What joins the two sides is that a minimum over
  8192 columns is the running minimum over four tiles of 2048 (SemiDualCost.lean: min is associative, commutative and
  idempotent on the extended reals, so no finiteness of the inputs is used), carried through the grid by induction on
  the point (KernelRunning.lean) and through the write-backs and the closing host lines (KernelResult.lean). Both
  programs close with the same sums and quotients of the same words, which are never evaluated.

  The three frames: the kernel's at the word level and at the extended reals are the generated frame runs; the
  reference's is its generated run with the result dropped. The idealization rewrote nothing, so it is preserved trivially.
-/
import proofs.«104257_j43147241455739_1_alg».proof.Defs
import proofs.«104257_j43147241455739_1_alg».proof.Proof.Gen.Kernel
import proofs.«104257_j43147241455739_1_alg».proof.Proof.Gen.Kernel.Skeleton
import proofs.«104257_j43147241455739_1_alg».proof.Proof.Gen.Kernel.Launch
import proofs.«104257_j43147241455739_1_alg».proof.Proof.Gen.Kernel.Points
import proofs.«104257_j43147241455739_1_alg».proof.Proof.Gen.Kernel.Frame
import proofs.«104257_j43147241455739_1_alg».proof.Proof.Gen.KernelIdeal
import proofs.«104257_j43147241455739_1_alg».proof.Proof.Gen.KernelIdeal.Skeleton
import proofs.«104257_j43147241455739_1_alg».proof.Proof.Gen.KernelIdeal.Launch
import proofs.«104257_j43147241455739_1_alg».proof.Proof.Gen.KernelIdeal.Points
import proofs.«104257_j43147241455739_1_alg».proof.Proof.Gen.KernelIdeal.Frame
import proofs.«104257_j43147241455739_1_alg».proof.Proof.Gen.ReferenceIdeal
import proofs.«104257_j43147241455739_1_alg».proof.Proof.Gen.ReferenceIdeal.Run
import proofs.«104257_j43147241455739_1_alg».proof.Proof.Gen.ReferenceIdeal.Read
import proofs.«104257_j43147241455739_1_alg».proof.Proof.Gen.Pre_finite_inputs
import proofs.«104257_j43147241455739_1_alg».proof.Proof.KernelResult
import proofs.«104257_j43147241455739_1_alg».proof.Proof.ReferenceValue
import Idealize.ShloMosaic.Adequacy
import Idealize.ShloMosaic.Init

noncomputable section

namespace Cert.Proof

open Idealize.ShloMosaic Idealize.ShloMosaic.TcCoe Idealize.SL.Sem Cert.SemiDual

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on x, y and ψ both programs end at the objective of those arrays: the kernel's result array
    is every row's least reduced cost (the running minimum over the four tiles), the reference's row minimum is the
    same least cost over all columns, and the closing sums and quotients are the same. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
